-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩

abbrev nBuf : Space → Nat
  | .hbm => 93
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S_, .f32⟩
  | .hbm, ⟨68, _⟩ => ⟨S128x128, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call1_v0 : Ref sig .tc := ⟨.hbm, 67, rfl⟩
abbrev main_v47 : Ref sig .tc := ⟨.hbm, 68, rfl⟩
abbrev main_c_10 : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S5000x128_S5000x128 : S5000x128.ShapeCasts S5000x128
  shapeCasts_S128x128_S128x128 : S128x128.ShapeCasts S128x128
  slices_S50000x128_S50000x40_0_0 : S50000x128.Slices ![0, 0] S50000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  The dense pieces of the two-layer graph convolution as functions of whole arrays over the extended reals.

  `mm x w` is the product of a [50000, 128] array with a [128, d] matrix: entry (p, q) is the sum over the 128
  shared coordinates k of x (p, k) · w (k, q). `relu s` is the positive part of s, entry by entry, the zero
  being the zero word of the 32-bit format (which denotes the real 0).
-/
import proofs.«107133_j48919677501959_1_alg».proof.KernelIdeal
import Idealize.ShloMosaic.PureOps.Ideal
import Idealize.ShloMosaic.Lib.ValueIdx

noncomputable section

namespace Cert.Spec

open Idealize.ShloMosaic Idealize.ShloMosaic.ValueIdx

/-- Entry (p, q) of the product x · w: the sum over the shared coordinate. -/
def mmAt {d : Nat} (x : (⟨2, ![50000, 128]⟩ : Shape).Idx → EReal) (w : (⟨2, ![128, d]⟩ : Shape).Idx → EReal)
    (p : Fin 50000) (q : Fin d) : EReal :=
  ∑ k : Fin 128, x (ix2 p k) * w (ix2 k q)

/-- The product x · w as a whole array. -/
def mm {d : Nat} (x : (⟨2, ![50000, 128]⟩ : Shape).Idx → EReal) (w : (⟨2, ![128, d]⟩ : Shape).Idx → EReal) :
    (⟨2, ![50000, d]⟩ : Shape).Idx → EReal :=
  fun i => mmAt x w ⟨(i 0).val, idx2_lt0 i⟩ ⟨(i 1).val, idx2_lt1 i⟩

theorem mm_apply {d : Nat} (x : (⟨2, ![50000, 128]⟩ : Shape).Idx → EReal) (w : (⟨2, ![128, d]⟩ : Shape).Idx → EReal)
    (p : Fin 50000) (q : Fin d) : mm x w (ix2 p q) = ∑ k : Fin 128, x (ix2 p k) * w (ix2 k q) := rfl

/-- The positive part, entry by entry. -/
def relu (s : (⟨2, ![50000, 128]⟩ : Shape).Idx → EReal) : (⟨2, ![50000, 128]⟩ : Shape).Idx → EReal :=
  fun i => max (s i) (Ideal.ofBits .f32 0x00000000#32)

end Cert.Spec

end
-- ==== Proof.RegionValue.lean ====
/-
  What each of the two tiled matrix products leaves in its output array.

  Each region walks ten blocks of 5000 rows; at block t the body stores, over the whole [5000, 128] block of the
  output, the product of the block of the left operand with the whole [128, 128] right operand (the left block first
  cut at zero in the second region). Row t·5000 + p of the array therefore ends at row p of block t's product, and
  the ten blocks cover the array: the output array ends at the product of the whole left array (its positive part,
  in the second region) with the right operand.
-/
import proofs.«107133_j48919677501959_1_alg».proof.Proof.Spec
import proofs.«107133_j48919677501959_1_alg».proof.Proof.Gen.KernelIdeal.Frame
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The product of a block with the right operand, entry by entry

Both bodies end in the same contraction: the left operand's axis 1 against the right operand's axis 0, into a zero
accumulator. Over the extended reals the narrowing of the operands to the 16-bit format is the identity, so entry
(p, q) of the payload is the sum over the 128 shared coordinates k of left (p, k) · right (k, q). The operand indices
of the contraction, axis by axis: -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the shared coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the shared coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction into the zero accumulator, at entry (p, q): the sum over the shared coordinate. -/
theorem contraction_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The first region -/

/-- The first body's payload at entry (p, q): row p of the left block against column q of the right operand. -/
theorem product_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact contraction_apply (truncf .bf16 x bitsLt_bf16_f32) (truncf .bf16 w bitsLt_bf16_f32) p q

/-- The whole-block accesses start at offset zero on both axes. -/
theorem zero_offsets : (![0, 0] : Fin 2 → Nat) = fun _ => 0 := funext fun a => by
  match a with
  | ⟨0, _⟩ => rfl
  | ⟨1, _⟩ => rfl

/-- The first region's index maps over the grid: at point t the left operand's and the output's block is row block t,
    the right operand's is its one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row t·5000 + p of its array. -/
theorem left_block0 (c : Dev nD) (t : Fin cfg0.N) (p : Fin 5000) (k : Fin 128) (hp : t.val * 5000 + p.val < 50000) :
    (iblk0 (F := Ideal) V c 0 t : Vec Ideal S5000x128 .f32) (ix2 p k)
      = (V c main_arg0 : S50000x128.Idx → EReal) (ix2 ⟨t.val * 5000 + p.val, hp⟩ k) := by
  obtain ⟨e0, e1, -⟩ := blocks0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The right operand's block at every point is its whole array. -/
theorem right_block0 (c : Dev nD) (t : Fin cfg0.N) (k q : Fin 128) :
    (iblk0 (F := Ideal) V c 1 t : Vec Ideal S128x128 .f32) (ix2 k q) = (V c main_arg2 : S128x128.Idx → EReal) (ix2 k q) := by
  obtain ⟨-, -, e2, e3, -⟩ := blocks0 t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, q) of the payload of blocks that are rows T·5000 … of A and the whole of B is entry (T·5000 + p, q) of
    the product of the arrays. -/
theorem product_of_blocks (A : S50000x128.Idx → EReal) (B : S128x128.Idx → EReal)
    (x : Vec Ideal S5000x128 .f32) (w : Vec Ideal S128x128 .f32) (T : Nat)
    (hx : ∀ (p : Fin 5000) (k : Fin 128) (hp : T * 5000 + p.val < 50000), x (ix2 p k) = A (ix2 ⟨T * 5000 + p.val, hp⟩ k))
    (hw : ∀ k q : Fin 128, w (ix2 k q) = B (ix2 k q))
    (p : Fin 5000) (q : Fin 128) (hp : T * 5000 + p.val < 50000) :
    k0_pay1 (F := Ideal) x w (ix2 p q) = Cert.Spec.mm A B (ix2 ⟨T * 5000 + p.val, hp⟩ q) := by
  rw [product_apply, Cert.Spec.mm_apply]
  exact Finset.sum_congr rfl fun k _ => by rw [hx p k hp, hw k q]

/-- What point t writes back is block t of the product of the two operand arrays. -/
theorem flushed0_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := blocks0 t
  have hN : cfg0.N = 10 := N_0
  have ht : t.val < 10 := hN ▸ t.isLt
  funext j
  have hj0 : (j 0).val < 5000 := (j 0).isLt
  have hj1 : (j 1).val < 128 := (j 1).isLt
  have hp : t.val * 5000 + (j 0).val < 50000 := by omega
  have ej : (cfg0.win 2).xinj (grid0.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have ei : ((cfg0.win 2).blk t).view.emb j
      = ix2 (⟨t.val * 5000 + (j 0).val, hp⟩ : Fin 50000) (⟨(j 1).val, hj1⟩ : Fin 128) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 128 + 1 * (j 1).val = (j 1).val; omega)
  show k0_pay1 (F := Ideal) (iblk0 V c 0 t) (iblk0 V c 1 t) ((cfg0.win 2).xinj (grid0.coords t) j)
    = Cert.Spec.mm (V c main_arg0) (V c main_arg2) (((cfg0.win 2).blk t).view.emb j)
  refine (congrArg (k0_pay1 (F := Ideal) (iblk0 V c 0 t) (iblk0 V c 1 t)) ej).trans ?_
  refine Eq.trans ?_ (congrArg (Cert.Spec.mm (V c main_arg0) (V c main_arg2)) ei).symm
  exact product_of_blocks (V c main_arg0) (V c main_arg2) (iblk0 V c 0 t) (iblk0 V c 1 t) t.val
    (fun p k hp' => left_block0 V c t p k hp') (fun k q => right_block0 V c t k q) ⟨(j 0).val, hj0⟩ ⟨(j 1).val, hj1⟩ hp

/-- A row of the output array lies in point t's block when it lies among rows t·5000 … t·5000 + 4999. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the output array is written back by point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, e4, e5⟩ := blocks0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- The first region's output array ends at the product of its two operand arrays as the region finds them. -/
theorem region0_array (c : Dev nD) :
    (dat0 (F := Ideal) V c).arrAt 2 cfg0.N = Cert.Spec.mm (V c main_arg0) (V c main_arg2) := by
  exact (dat0 (F := Ideal) V c).arrAt_eq_of_cover 2 (Cert.Spec.mm (V c main_arg0) (V c main_arg2))
    (fun t _ => flushed0_eq V c t) cover0

/-! ## The second region -/

/-- The positive part at an entry. -/
theorem relu_at (s : S50000x128.Idx → EReal) (i : S50000x128.Idx) :
    Cert.Spec.relu s i = max (s i) (Ideal.ofBits .f32 0x00000000#32) := rfl

/-- The second body's payload at entry (p, q): row p of the left block, cut at zero entry by entry, against column q
    of the right operand. The two shape casts are to the same shape, hence the identity; the zero the left block is
    compared with is the broadcast zero word. -/
theorem relu_product_apply (x : Vec Ideal S5000x128 .f32) (w : Vec Ideal S128x128 .f32) (p : Fin 5000) (q : Fin 128) :
    k1_pay1 (F := Ideal) x w (ix2 p q)
      = ∑ k : Fin 128, max (x (ix2 p k)) (Ideal.ofBits .f32 0x00000000#32) * w (ix2 k q) := by
  have ex : shapeCast S5000x128 x shapeCasts_S5000x128_S5000x128 = x := shapeCast_self x _
  have ew : shapeCast S128x128 w shapeCasts_S128x128_S128x128 = w := shapeCast_self w _
  unfold k1_pay1
  refine (contraction_apply _ _ p q).trans ?_
  refine Finset.sum_congr rfl fun k _ => ?_
  show max (shapeCast S5000x128 x shapeCasts_S5000x128_S5000x128 (ix2 p k)) (Ideal.ofBits .f32 0x00000000#32)
      * shapeCast S128x128 w shapeCasts_S128x128_S128x128 (ix2 k q) = _
  rw [ex, ew]

/-- The second region's index maps over the grid: at point t the left operand's and the output's block is row block t,
    the right operand's is its one block. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row t·5000 + p of its array. -/
theorem left_block1 (c : Dev nD) (t : Fin cfg1.N) (p : Fin 5000) (k : Fin 128) (hp : t.val * 5000 + p.val < 50000) :
    (iblk1 (F := Ideal) V c 0 t : Vec Ideal S5000x128 .f32) (ix2 p k)
      = (V c main_v46 : S50000x128.Idx → EReal) (ix2 ⟨t.val * 5000 + p.val, hp⟩ k) := by
  obtain ⟨e0, e1, -⟩ := blocks1 t
  show V c main_v46 (((cfg1.win 0).blk t).view.emb (ix2 p k)) = _
  refine congrArg (V c main_v46) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The right operand's block at every point is its whole array. -/
theorem right_block1 (c : Dev nD) (t : Fin cfg1.N) (k q : Fin 128) :
    (iblk1 (F := Ideal) V c 1 t : Vec Ideal S128x128 .f32) (ix2 k q) = (V c main_v47 : S128x128.Idx → EReal) (ix2 k q) := by
  obtain ⟨-, -, e2, e3, -⟩ := blocks1 t
  show V c main_v47 (((cfg1.win 1).blk t).view.emb (ix2 k q)) = _
  refine congrArg (V c main_v47) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- Entry (p, q) of the second payload of blocks that are rows T·5000 … of A and the whole of B is entry
    (T·5000 + p, q) of the product of the positive part of A with B. -/
theorem relu_product_of_blocks (A : S50000x128.Idx → EReal) (B : S128x128.Idx → EReal)
    (x : Vec Ideal S5000x128 .f32) (w : Vec Ideal S128x128 .f32) (T : Nat)
    (hx : ∀ (p : Fin 5000) (k : Fin 128) (hp : T * 5000 + p.val < 50000), x (ix2 p k) = A (ix2 ⟨T * 5000 + p.val, hp⟩ k))
    (hw : ∀ k q : Fin 128, w (ix2 k q) = B (ix2 k q))
    (p : Fin 5000) (q : Fin 128) (hp : T * 5000 + p.val < 50000) :
    k1_pay1 (F := Ideal) x w (ix2 p q) = Cert.Spec.mm (Cert.Spec.relu A) B (ix2 ⟨T * 5000 + p.val, hp⟩ q) := by
  rw [relu_product_apply, Cert.Spec.mm_apply]
  exact Finset.sum_congr rfl fun k _ => by rw [hx p k hp, hw k q, relu_at]

/-- What point t writes back is block t of the product of the positive part of the left array with the right one. -/
theorem flushed1_eq (c : Dev nD) (t : Fin cfg1.N) :
    (dat1 (F := Ideal) V c).flushed 2 t
      = ((cfg1.win 2).blk t).view.read (Elt Ideal) (Cert.Spec.mm (Cert.Spec.relu (V c main_v46)) (V c main_v47)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x128) zero_offsets]
  obtain ⟨-, -, -, -, e4, e5⟩ := blocks1 t
  have hN : cfg1.N = 10 := N_1
  have ht : t.val < 10 := hN ▸ t.isLt
  funext j
  have hj0 : (j 0).val < 5000 := (j 0).isLt
  have hj1 : (j 1).val < 128 := (j 1).isLt
  have hp : t.val * 5000 + (j 0).val < 50000 := by omega
  have ej : (cfg1.win 2).xinj (grid1.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have ei : ((cfg1.win 2).blk t).view.emb j
      = ix2 (⟨t.val * 5000 + (j 0).val, hp⟩ : Fin 50000) (⟨(j 1).val, hj1⟩ : Fin 128) :=
    funext fun a => Fin.ext (by
      match a with
      | ⟨0, _⟩ => show win1_2.index t (0 : Fin 2) * 5000 + 1 * (j 0).val = t.val * 5000 + (j 0).val; omega
      | ⟨1, _⟩ => show win1_2.index t (1 : Fin 2) * 128 + 1 * (j 1).val = (j 1).val; omega)
  show k1_pay1 (F := Ideal) (iblk1 V c 0 t) (iblk1 V c 1 t) ((cfg1.win 2).xinj (grid1.coords t) j)
    = Cert.Spec.mm (Cert.Spec.relu (V c main_v46)) (V c main_v47) (((cfg1.win 2).blk t).view.emb j)
  refine (congrArg (k1_pay1 (F := Ideal) (iblk1 V c 0 t) (iblk1 V c 1 t)) ej).trans ?_
  refine Eq.trans ?_ (congrArg (Cert.Spec.mm (Cert.Spec.relu (V c main_v46)) (V c main_v47)) ei).symm
  exact relu_product_of_blocks (V c main_v46) (V c main_v47) (iblk1 V c 0 t) (iblk1 V c 1 t) t.val
    (fun p k hp' => left_block1 V c t p k hp') (fun k q => right_block1 V c t k q) ⟨(j 0).val, hj0⟩ ⟨(j 1).val, hj1⟩ hp

/-- A row of the output array lies in point t's block when it lies among rows t·5000 … t·5000 + 4999. -/
theorem mem_block1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v49).slice (win1_2.rect t)).set ↔ _
  rw [View.set_slice_whole, Rect.mem_set_unit]
  exact Iff.rfl

/-- Row r of the output array is written back by point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, e4, e5⟩ := blocks1 ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_block1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val
      ∧ (i 1).val < win1_2.index ⟨(i 0).val / 5000, hlt⟩ (1 : Fin 2) * 128 + 128
    omega

/-- The second region's output array ends at the product of the positive part of its left operand array with its
    right operand array, as the region finds them. -/
theorem region1_array (c : Dev nD) :
    (dat1 (F := Ideal) V c).arrAt 2 cfg1.N = Cert.Spec.mm (Cert.Spec.relu (V c main_v46)) (V c main_v47) := by
  exact (dat1 (F := Ideal) V c).arrAt_eq_of_cover 2 (Cert.Spec.mm (Cert.Spec.relu (V c main_v46)) (V c main_v47))
    (fun t _ => flushed1_eq V c t) cover1

end Cert.KernelIdeal.RegionValue

end
-- ==== Proof.KernelStages.lean ====
/-
  The kernel program's buffers at the boundaries of its run, as functions of the argument arrays (extended reals).

  The program is: host operations that build, from the edge list, the source rows, the target rows and the
  per-edge normalisation; the first tiled product x · W1; host operations that gather its rows along the edges,
  scale them, add them into the target rows and add the bias b1; two paddings (W2 and b2 to 128 columns, by
  zeros); the second tiled product, of the positive part of the first layer's result with the padded W2; the same
  gather, scale, add and bias on its 128 columns; and a cut to the first 40 columns. The host operations up to the
  first layer's result are word for word those of the reference program, so those boundary values are stated with
  the reference's own stages; the last stretch is stated as one function `tail` of the second product, the rows, the
  normalisation and the padded bias.
-/
import proofs.«107133_j48919677501959_1_alg».proof.Proof.Gen.KernelIdeal.Frame
import proofs.«107133_j48919677501959_1_alg».proof.Proof.RefRead
import proofs.«107133_j48919677501959_1_alg».proof.Proof.Spec
import proofs.«107133_j48919677501959_1_alg».proof.Proof.RegionValue
import Idealize.ShloMosaic.Lib.StableHlo.Run

set_option maxRecDepth 16384

noncomputable section

namespace Cert.KernelIdeal.Stages

open Idealize.ShloMosaic Idealize.ShloMosaic.TcCoe Idealize.ShloMosaic.ValueIdx Idealize.SL.Sem Idealize.ShloMosaic.StableHlo
open Cert.KernelIdeal Cert.KernelIdeal.Gen
open Cert.ReferenceIdeal.ReadP (val_main_v3 val_main_v6 val_main_v29 val_main_v30 val_main_v46)

/-- Reads a buffer after a literal stretch of host operations: one pass over the operations' results, then the same
    results by rewriting where an operand list (of a concatenation) hides them from the pass. -/
local macro "host_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable (m : (ℓ : Loc nD τ sig) → Buf (Elt Ideal) ℓ) (ρ : Dev nD → PrngReg) (c : Dev nD)

/-- The argument arrays as launched. -/
abbrev aX : Buf (Elt Ideal) ((c.tc : Thread nD τ).loc main_arg0) := m ((c.tc : Thread nD τ).loc main_arg0)
abbrev aE : Buf (Elt Ideal) ((c.tc : Thread nD τ).loc main_arg1) := m ((c.tc : Thread nD τ).loc main_arg1)
abbrev aW1 : Buf (Elt Ideal) ((c.tc : Thread nD τ).loc main_arg2) := m ((c.tc : Thread nD τ).loc main_arg2)
abbrev aB1 : Buf (Elt Ideal) ((c.tc : Thread nD τ).loc main_arg3) := m ((c.tc : Thread nD τ).loc main_arg3)
abbrev aW2 : Buf (Elt Ideal) ((c.tc : Thread nD τ).loc main_arg4) := m ((c.tc : Thread nD τ).loc main_arg4)
abbrev aB2 : Buf (Elt Ideal) ((c.tc : Thread nD τ).loc main_arg5) := m ((c.tc : Thread nD τ).loc main_arg5)

/-! ## Up to the first product's entry -/

section AnyFloats
/- The comparison of the host operations' composed terms with the reference's stages is a comparison of two texts:
   it is made for an arbitrary family of float types, where no operation unfolds. -/
variable {F : FTy → Type} [FloatOps F] (m : (ℓ : Loc nD τ sig) → Buf (Elt F) ℓ) (ρ : Dev nD → PrngReg) (c : Dev nD)

theorem entry0_rows_any : W3 m ρ c (Proc.devRef .tc main_v3) = val_main_v3 (F := F) (m ((c.tc : Thread nD τ).loc main_arg1)) := by
  show StableHlo.after hostOps0_2 (StableHlo.after hostOps0_1 (StableHlo.after hostOps0 (W0 m ρ c))) (Proc.devRef .tc main_v3) = _
  host_results
  rfl

theorem entry0_cols_any : W3 m ρ c (Proc.devRef .tc main_v6) = val_main_v6 (F := F) (m ((c.tc : Thread nD τ).loc main_arg1)) := by
  show StableHlo.after hostOps0_2 (StableHlo.after hostOps0_1 (StableHlo.after hostOps0 (W0 m ρ c))) (Proc.devRef .tc main_v6) = _
  host_results
  rfl

theorem entry0_norm_any : W3 m ρ c (Proc.devRef .tc main_v29) = val_main_v29 (F := F) (m ((c.tc : Thread nD τ).loc main_arg1)) := by
  show StableHlo.after hostOps0_2 (StableHlo.after hostOps0_1 (StableHlo.after hostOps0 (W0 m ρ c))) (Proc.devRef .tc main_v29) = _
  host_results
  rfl

end AnyFloats

theorem entry0_rows : W3 m ρ c (Proc.devRef .tc main_v3) = val_main_v3 (F := Ideal) (aE m c) := entry0_rows_any m ρ c
theorem entry0_cols : W3 m ρ c (Proc.devRef .tc main_v6) = val_main_v6 (F := Ideal) (aE m c) := entry0_cols_any m ρ c
theorem entry0_norm : W3 m ρ c (Proc.devRef .tc main_v29) = val_main_v29 (F := Ideal) (aE m c) := entry0_norm_any m ρ c

theorem entry0_x : W3 m ρ c (Proc.devRef .tc main_arg0) = aX m c := by
  show StableHlo.after hostOps0_2 (StableHlo.after hostOps0_1 (StableHlo.after hostOps0 (W0 m ρ c))) (Proc.devRef .tc main_arg0) = _
  after_results_simp

theorem entry0_w1 : W3 m ρ c (Proc.devRef .tc main_arg2) = aW1 m c := by
  show StableHlo.after hostOps0_2 (StableHlo.after hostOps0_1 (StableHlo.after hostOps0 (W0 m ρ c))) (Proc.devRef .tc main_arg2) = _
  after_results_simp

theorem entry0_b1 : W3 m ρ c (Proc.devRef .tc main_arg3) = aB1 m c := by
  show StableHlo.after hostOps0_2 (StableHlo.after hostOps0_1 (StableHlo.after hostOps0 (W0 m ρ c))) (Proc.devRef .tc main_arg3) = _
  after_results_simp

theorem entry0_w2 : W3 m ρ c (Proc.devRef .tc main_arg4) = aW2 m c := by
  show StableHlo.after hostOps0_2 (StableHlo.after hostOps0_1 (StableHlo.after hostOps0 (W0 m ρ c))) (Proc.devRef .tc main_arg4) = _
  after_results_simp

theorem entry0_b2 : W3 m ρ c (Proc.devRef .tc main_arg5) = aB2 m c := by
  show StableHlo.after hostOps0_2 (StableHlo.after hostOps0_1 (StableHlo.after hostOps0 (W0 m ρ c))) (Proc.devRef .tc main_arg5) = _
  after_results_simp

/-! ## The first product -/

/-- The host's product of the reference is the sum over the shared coordinate. -/
theorem v30_eq_mm (x : (⟨S50000x128, .f32⟩ : BufTy).Contents (Elt Ideal)) (w : (⟨S128x128, .f32⟩ : BufTy).Contents (Elt Ideal)) :
    val_main_v30 (F := Ideal) x w = Cert.Spec.mm x w := by
  funext i
  obtain ⟨p, q, rfl⟩ : ∃ (p : Fin 50000) (q : Fin 128), i = ix2 p q := ⟨i 0, i 1, eq_ix2 i⟩
  rw [Cert.ReferenceIdeal.ReadP.val_main_v30_apply, Cert.Spec.mm_apply]
  refine Finset.sum_congr rfl fun k _ => ?_
  congr 2
  · funext a; exact Fin.ext (by match a with | ⟨0, _⟩ => rfl | ⟨1, _⟩ => rfl)
  · funext a; exact Fin.ext (by match a with | ⟨0, _⟩ => rfl | ⟨1, _⟩ => rfl)

theorem exit0_prod : W4 m ρ c (Proc.devRef .tc main_v30) = val_main_v30 (F := Ideal) (aX m c) (aW1 m c) := by
  rw [v30_eq_mm]
  refine (W4_arr m ρ c 2).trans ?_
  rw [Cert.KernelIdeal.RegionValue.region0_array (V3 m ρ) c]
  show Cert.Spec.mm (W3 m ρ c (Proc.devRef .tc main_arg0)) (W3 m ρ c (Proc.devRef .tc main_arg2)) = _
  rw [entry0_x, entry0_w1]

theorem exit0_rows : W4 m ρ c (Proc.devRef .tc main_v3) = val_main_v3 (F := Ideal) (aE m c) :=
  (W4_of_ne m ρ c main_v3 (by decide)).trans (entry0_rows m ρ c)
theorem exit0_cols : W4 m ρ c (Proc.devRef .tc main_v6) = val_main_v6 (F := Ideal) (aE m c) :=
  (W4_of_ne m ρ c main_v6 (by decide)).trans (entry0_cols m ρ c)
theorem exit0_norm : W4 m ρ c (Proc.devRef .tc main_v29) = val_main_v29 (F := Ideal) (aE m c) :=
  (W4_of_ne m ρ c main_v29 (by decide)).trans (entry0_norm m ρ c)
theorem exit0_b1 : W4 m ρ c (Proc.devRef .tc main_arg3) = aB1 m c :=
  (W4_of_ne m ρ c main_arg3 (by decide)).trans (entry0_b1 m ρ c)
theorem exit0_w2 : W4 m ρ c (Proc.devRef .tc main_arg4) = aW2 m c :=
  (W4_of_ne m ρ c main_arg4 (by decide)).trans (entry0_w2 m ρ c)
theorem exit0_b2 : W4 m ρ c (Proc.devRef .tc main_arg5) = aB2 m c :=
  (W4_of_ne m ρ c main_arg5 (by decide)).trans (entry0_b2 m ρ c)

/-! ## Up to the second product's entry -/

theorem entry1_layer1 : W8 m ρ c (Proc.devRef .tc main_v46)
    = val_main_v46 (F := Ideal) (aX m c) (aE m c) (aW1 m c) (aB1 m c) := by
  show StableHlo.after hostOps1_3 (StableHlo.after hostOps1_2 (StableHlo.after hostOps1_1 (StableHlo.after hostOps1 (W4 m ρ c)))) (Proc.devRef .tc main_v46) = _
  after_results_simp
  rw [exit0_prod, exit0_rows, exit0_cols, exit0_norm, exit0_b1]
  rfl

theorem entry1_rows : W8 m ρ c (Proc.devRef .tc main_v3) = val_main_v3 (F := Ideal) (aE m c) := by
  show StableHlo.after hostOps1_3 (StableHlo.after hostOps1_2 (StableHlo.after hostOps1_1 (StableHlo.after hostOps1 (W4 m ρ c)))) (Proc.devRef .tc main_v3) = _
  after_results_simp
  exact exit0_rows m ρ c
theorem entry1_cols : W8 m ρ c (Proc.devRef .tc main_v6) = val_main_v6 (F := Ideal) (aE m c) := by
  show StableHlo.after hostOps1_3 (StableHlo.after hostOps1_2 (StableHlo.after hostOps1_1 (StableHlo.after hostOps1 (W4 m ρ c)))) (Proc.devRef .tc main_v6) = _
  after_results_simp
  exact exit0_cols m ρ c
theorem entry1_norm : W8 m ρ c (Proc.devRef .tc main_v29) = val_main_v29 (F := Ideal) (aE m c) := by
  show StableHlo.after hostOps1_3 (StableHlo.after hostOps1_2 (StableHlo.after hostOps1_1 (StableHlo.after hostOps1 (W4 m ρ c)))) (Proc.devRef .tc main_v29) = _
  after_results_simp
  exact exit0_norm m ρ c

/-- W2 with 88 columns of zeros appended. -/
def padW2 (w2 : (⟨S128x40, .f32⟩ : BufTy).Contents (Elt Ideal)) : (⟨S128x128, .f32⟩ : BufTy).Contents (Elt Ideal) :=
  pad S128x128 ![0, 0] ![0, 88] ![0, 0] w2 (sitofp (F := Ideal) .f32 (constantI S_ 32 0#32)) pads_S128x40_S128x128_000_0880 h_S_

/-- b2 with 88 zeros appended. -/
def padB2 (b2 : (⟨S40, .f32⟩ : BufTy).Contents (Elt Ideal)) : (⟨S128, .f32⟩ : BufTy).Contents (Elt Ideal) :=
  pad S128 ![0] ![88] ![0] b2 (sitofp (F := Ideal) .f32 (constantI S_ 32 0#32)) pads_S40_S128_0880 h_S_

theorem entry1_w2 : W8 m ρ c (Proc.devRef .tc main_v47) = padW2 (aW2 m c) := by
  show StableHlo.after hostOps1_3 (StableHlo.after hostOps1_2 (StableHlo.after hostOps1_1 (StableHlo.after hostOps1 (W4 m ρ c)))) (Proc.devRef .tc main_v47) = _
  after_results_simp
  rw [exit0_w2]
  rfl

theorem entry1_b2 : W8 m ρ c (Proc.devRef .tc main_v48) = padB2 (aB2 m c) := by
  show StableHlo.after hostOps1_3 (StableHlo.after hostOps1_2 (StableHlo.after hostOps1_1 (StableHlo.after hostOps1 (W4 m ρ c)))) (Proc.devRef .tc main_v48) = _
  after_results_simp
  rw [exit0_b2]
  rfl

/-! ## The second product, and the last stretch -/

theorem exit1_prod : W9 m ρ c (Proc.devRef .tc main_v49)
    = Cert.Spec.mm (Cert.Spec.relu (val_main_v46 (F := Ideal) (aX m c) (aE m c) (aW1 m c) (aB1 m c))) (padW2 (aW2 m c)) := by
  refine (W9_arr m ρ c 2).trans ?_
  rw [Cert.KernelIdeal.RegionValue.region1_array (V8 m ρ) c]
  show Cert.Spec.mm (Cert.Spec.relu (W8 m ρ c (Proc.devRef .tc main_v46))) (W8 m ρ c (Proc.devRef .tc main_v47)) = _
  rw [entry1_layer1, entry1_w2]

theorem exit1_rows : W9 m ρ c (Proc.devRef .tc main_v3) = val_main_v3 (F := Ideal) (aE m c) :=
  (W9_of_ne m ρ c main_v3 (by decide)).trans (entry1_rows m ρ c)
theorem exit1_cols : W9 m ρ c (Proc.devRef .tc main_v6) = val_main_v6 (F := Ideal) (aE m c) :=
  (W9_of_ne m ρ c main_v6 (by decide)).trans (entry1_cols m ρ c)
theorem exit1_norm : W9 m ρ c (Proc.devRef .tc main_v29) = val_main_v29 (F := Ideal) (aE m c) :=
  (W9_of_ne m ρ c main_v29 (by decide)).trans (entry1_norm m ρ c)
theorem exit1_b2 : W9 m ρ c (Proc.devRef .tc main_v48) = padB2 (aB2 m c) :=
  (W9_of_ne m ρ c main_v48 (by decide)).trans (entry1_b2 m ρ c)

/-- The last stretch as one function: the rows of the second product gathered along the edges' source rows
    (a negative row number counted from the end, as the host writes it), scaled by the normalisation, added into
    the edges' target rows of a zero array, the padded bias added, and the first 40 columns kept. -/
def tail (t2 : (⟨S50000x128, .f32⟩ : BufTy).Contents (Elt Ideal)) (rows cols : (⟨S850000, .i32⟩ : BufTy).Contents (Elt Ideal))
    (nrm : (⟨S850000, .f32⟩ : BufTy).Contents (Elt Ideal)) (bp : (⟨S128, .f32⟩ : BufTy).Contents (Elt Ideal)) :
    (⟨S50000x40, .f32⟩ : BufTy).Contents (Elt Ideal) :=
  extractStridedSlice S50000x40 ![0, 0]
    (addf
      (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 cols)
        (mulf
          (Host.gather gather_S50000x128_S850000x1_S850000x128_1_0_n_n_0_1_1128 t2
            (broadcastInDim S850000x1 ![0] bcast_S850000_S850000x1_0
              (select (cmpi .slt rows (broadcastInDim S850000 ![] bcast_S_S850000 (constantI S_ 32 0#32)))
                (addi rows (broadcastInDim S850000 ![] bcast_S_S850000 (constantI S_ 32 50000#32))) rows)))
          (broadcastInDim S850000x128 ![0, 1] bcast_S850000x1_S850000x128_0_1
            (broadcastInDim S850000x1 ![0] bcast_S850000_S850000x1_0 nrm))))
      (broadcastInDim S50000x128 ![0, 1] bcast_S1x128_S50000x128_0_1 (broadcastInDim S1x128 ![1] bcast_S128_S1x128_1 bp)))
    slices_S50000x128_S50000x40_0_0

/-- The kernel program's result array at the end of its run. -/
theorem kernel_value : W10 m ρ c (Proc.devRef .tc main_v66)
    = tail (Cert.Spec.mm (Cert.Spec.relu (val_main_v46 (F := Ideal) (aX m c) (aE m c) (aW1 m c) (aB1 m c))) (padW2 (aW2 m c)))
        (val_main_v3 (F := Ideal) (aE m c)) (val_main_v6 (F := Ideal) (aE m c)) (val_main_v29 (F := Ideal) (aE m c)) (padB2 (aB2 m c)) := by
  show StableHlo.after hostOps2 (W9 m ρ c) (Proc.devRef .tc main_v66) = _
  after_results_simp
  rw [exit1_prod, exit1_rows, exit1_cols, exit1_norm, exit1_b2]
  rfl

end Cert.KernelIdeal.Stages

end
-- ==== Proof.LibGraphOps.lean ====
/-
  Where an update of an accumulating scatter lands, as a host program prints it.

  A hypergraph convolution adds, for every incidence pair, a row of per-pair values into the table row the pair's
  index word names (an accumulating scatter whose scatter indices are the [N, 1] column of those words).
  With the dimension numbers jax prints for "rows of updates added into table rows" — the updates' axis 1 the one
  window axis, the table's axis 0 inserted and scatter-indexed, the index vector on axis 1 of the scatter indices —
  update entry (r, b) lands on table entry (c, f) exactly when row r's scatter word, read as a signed integer, is c,
  and b = f. A word that is no row number (negative, or ≥ the table's rows) lands nowhere. The rank-1 form (a
  vector of updates into a vector) is the same without the feature coordinate. Stated for any sizes.
-/
import Idealize.ShloMosaic.PureOps.Dims
import Idealize.ShloMosaic.PureOps.ShapeOps
import Idealize.ShloMosaic.PureOps.Ideal
import Idealize.ShloMosaic.Lib.ValueIdx

namespace Idealize.ShloMosaic.GraphOps

open Idealize.ShloMosaic Idealize.ShloMosaic.ValueIdx

/-- A rank-1 index has one coordinate, whatever the axis is called. -/
theorem ix1_val {n : Nat} (a : Fin n) (i : Fin 1) : (ix1 a i).val = a.val := by
  match i with
  | ⟨0, _⟩ => rfl

/-- Coordinate 0 of a rank-2 index built from (a, b) is a. -/
theorem ix2_val_zero {n0 n1 : Nat} (a : Fin n0) (b : Fin n1) (x : Fin 2) (h : x.val = 0) : (ix2 a b x).val = a.val := by
  match x, h with
  | ⟨0, _⟩, _ => rfl

/-- Coordinate 1 of a rank-2 index built from (a, b) is b. -/
theorem ix2_val_one {n0 n1 : Nat} (a : Fin n0) (b : Fin n1) (x : Fin 2) (h : x.val = 1) : (ix2 a b x).val = b.val := by
  match x, h with
  | ⟨1, _⟩, _ => rfl

/-! ## 1. Where an update lands -/

section rows
variable {C D N w : Nat} (d : ScatterDims ⟨2, ![C, D]⟩ ⟨2, ![N, 1]⟩ ⟨2, ![N, D]⟩)

/-- With axis 1 of the updates the one window axis, every update scatter axis is axis 0. -/
theorem rows_uScatter (huw : d.updateWindowDims = [1]) : ∀ a ∈ d.uScatter, a.val = 0 := by
  intro a ha
  have hna : a ∉ d.updateWindowDims := by
    have := (List.mem_filter.mp ha).2
    simpa using this
  rw [huw] at hna
  have h2 : a.val < 2 := a.isLt
  by_contra hne
  exact hna (List.mem_singleton.mpr (Fin.ext (by show a.val = 1; omega)))

/-- Update entry (r, b) reads its one scatter word at (r, 0) of the scatter indices. -/
theorem rows_siIdx (huw : d.updateWindowDims = [1]) (hsd : d.scatterDimsToOperandDims = [0]) (hivd : d.indexVectorDim = 1)
    (r : Fin N) (b : Fin D) (k : Fin d.scatterDimsToOperandDims.length) :
    d.siIdx (ix2 r b) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix2_val_zero r b _ (rows_uScatter d huw _ (List.getElem_mem _))
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

/-- On table axis 0 the window of update entry (r, b) starts at row r's scatter word, read signed. -/
theorem rows_start_zero (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm, rows_siIdx d huw hsd hivd r b]

/-- … and on table axis 1, which no scatter word names, at 0. -/
theorem rows_start_one (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

/-- Table axis 0 is inserted: no window coordinate on it. -/
theorem rows_window_zero (hiw : d.insertedWindowDims = [0]) (r : Fin N) (b : Fin D) : d.window (ix2 r b) 0 = 0 := by
  have hk : (0 : Fin 2) ∉ d.sKept := by
    intro h
    have := (List.mem_filter.mp h).2
    rw [hiw] at this
    simp at this
  unfold ScatterDims.window
  rw [dif_neg hk]

/-- Table axis 1 is the one kept axis: its window coordinate is the update's feature column. -/
theorem rows_window_one (huw : d.updateWindowDims = [1]) (hiw : d.insertedWindowDims = [0]) (r : Fin N) (b : Fin D) :
    d.window (ix2 r b) 1 = b.val := by
  have hk : (1 : Fin 2) ∈ d.sKept := by
    refine List.mem_filter.mpr ⟨List.mem_finRange _, ?_⟩
    rw [hiw]; simp
  have hwin : ∀ a ∈ d.updateWindowDims, a.val = 1 := by
    intro a ha; rw [huw] at ha; rw [List.mem_singleton.mp ha]; rfl
  unfold ScatterDims.window
  rw [dif_pos hk]
  exact ix2_val_one r b _ (hwin _ (List.getElem_mem _))

end rows

/-- ROWS INTO ROWS. Update entry (r, b) of [N, D] updates lands on entry (c, f) of a [C, D] table exactly when row r's
    scatter word, as a signed integer, is c, and the feature column is kept (b = f). The four hypotheses are the printed
    dimension numbers, each by `rfl` at a program's record. -/
theorem rows_hit {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (idx : IVec ⟨2, ![N, 1]⟩ w) (r : Fin N) (b f : Fin D) (c : Fin C) :
    d.resultIdx? (ix2 r b) idx = some (ix2 c f) ↔ (idx (ix2 r (0 : Fin 1))).toInt = (c.val : ℤ) ∧ b = f := by
  have hs0 := rows_start_zero d huw hsd hivd idx r b
  have hs1 := rows_start_one d hsd idx r b
  have hw0 := rows_window_zero d hiw r b
  have hw1 := rows_window_one d huw hiw r b
  unfold ScatterDims.resultIdx?
  constructor
  · intro h
    split at h
    · rename_i hc
      have he := Option.some.inj h
      have e0 : (d.start (ix2 r b) idx 0 + (d.window (ix2 r b) 0 : ℤ)).toNat = c.val := congrArg (fun g => (g 0).val) he
      have e1 : (d.start (ix2 r b) idx 1 + (d.window (ix2 r b) 1 : ℤ)).toNat = f.val := congrArg (fun g => (g 1).val) he
      have c0 := (hc 0).1
      rw [hs0, hw0] at e0 c0
      rw [hs1, hw1] at e1
      exact ⟨by omega, Fin.ext (by omega)⟩
    · cases h
  · rintro ⟨hS, rfl⟩
    have hcl : c.val < C := c.isLt
    have hbl : b.val < D := b.isLt
    rw [dif_pos (by
      intro a
      match a with
      | ⟨0, _⟩ =>
        show 0 ≤ d.start (ix2 r b) idx 0 + (d.window (ix2 r b) 0 : ℤ) ∧ d.start (ix2 r b) idx 0 + (d.window (ix2 r b) 0 : ℤ) < (C : ℤ)
        rw [hs0, hw0, hS]; omega
      | ⟨1, _⟩ =>
        show 0 ≤ d.start (ix2 r b) idx 1 + (d.window (ix2 r b) 1 : ℤ) ∧ d.start (ix2 r b) idx 1 + (d.window (ix2 r b) 1 : ℤ) < (D : ℤ)
        rw [hs1, hw1]; omega)]
    congr 1
    funext a
    apply Fin.ext
    match a with
    | ⟨0, _⟩ =>
      show (d.start (ix2 r b) idx 0 + (d.window (ix2 r b) 0 : ℤ)).toNat = c.val
      rw [hs0, hw0, hS]; omega
    | ⟨1, _⟩ =>
      show (d.start (ix2 r b) idx 1 + (d.window (ix2 r b) 1 : ℤ)).toNat = b.val
      rw [hs1, hw1]; omega

section vec
variable {C N w : Nat} (d : ScatterDims ⟨1, ![C]⟩ ⟨2, ![N, 1]⟩ ⟨1, ![N]⟩)

/-- Update r of a vector of updates reads its one scatter word at (r, 0) of the scatter indices. -/
theorem vec_siIdx (hsd : d.scatterDimsToOperandDims = [0]) (hivd : d.indexVectorDim = 1)
    (r : Fin N) (k : Fin d.scatterDimsToOperandDims.length) :
    d.siIdx (ix1 r) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

/-- On the one axis of the operand the window of update r starts at r's scatter word, read signed. -/
theorem vec_start (hsd : d.scatterDimsToOperandDims = [0]) (hivd : d.indexVectorDim = 1)
    (idx : IVec ⟨2, ![N, 1]⟩ w) (r : Fin N) :
    d.start (ix1 r) idx 0 = (idx (ix2 r (0 : Fin 1))).toInt := by
  have hm : (0 : Fin 1) ∈ d.scatterDimsToOperandDims := by rw [hsd]; exact List.mem_singleton.mpr rfl
  unfold ScatterDims.start
  rw [dif_pos hm, vec_siIdx d hsd hivd r]

/-- That axis is inserted: no window coordinate on it. -/
theorem vec_window (hiw : d.insertedWindowDims = [0]) (r : Fin N) : d.window (ix1 r) 0 = 0 := by
  have hk : (0 : Fin 1) ∉ d.sKept := by
    intro h
    have := (List.mem_filter.mp h).2
    rw [hiw] at this
    simp at this
  unfold ScatterDims.window
  rw [dif_neg hk]

end vec

/-- ENTRIES INTO ENTRIES. Update r of a vector of N updates lands on entry c of a vector of C entries exactly when r's
    scatter word, as a signed integer, is c. The four hypotheses are the printed dimension numbers. -/
theorem vec_hit {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (idx : IVec ⟨2, ![N, 1]⟩ w) (r : Fin N) (c : Fin C) :
    d.resultIdx? (ix1 r) idx = some (ix1 c) ↔ (idx (ix2 r (0 : Fin 1))).toInt = (c.val : ℤ) := by
  have _ := huw
  have hs0 := vec_start d hsd hivd idx r
  have hw0 := vec_window d hiw r
  unfold ScatterDims.resultIdx?
  constructor
  · intro h
    split at h
    · rename_i hc
      have he := Option.some.inj h
      have e0 : (d.start (ix1 r) idx 0 + (d.window (ix1 r) 0 : ℤ)).toNat = c.val := congrArg (fun g => (g 0).val) he
      have c0 := (hc 0).1
      rw [hs0, hw0] at e0 c0
      omega
    · cases h
  · intro hS
    have hcl : c.val < C := c.isLt
    rw [dif_pos (by
      intro a
      match a with
      | ⟨0, _⟩ =>
        show 0 ≤ d.start (ix1 r) idx 0 + (d.window (ix1 r) 0 : ℤ) ∧ d.start (ix1 r) idx 0 + (d.window (ix1 r) 0 : ℤ) < (C : ℤ)
        rw [hs0, hw0, hS]; omega)]
    congr 1
    funext a
    apply Fin.ext
    match a with
    | ⟨0, _⟩ =>
      show (d.start (ix1 r) idx 0 + (d.window (ix1 r) 0 : ℤ)).toNat = c.val
      rw [hs0, hw0, hS]; omega

end Idealize.ShloMosaic.GraphOps
-- ==== Proof.LibGraphRows.lean ====
/-
  An accumulating scatter of rows into rows, and a gather of rows, read at one entry.

  With the dimension numbers a host program prints for "rows of updates added into the table rows the scatter words
  name", entry (c, f) of the result is the table's entry plus the sum, over the update rows r whose scatter word read
  as a signed integer is c, of update entry (r, f): every update row lands whole on one table row (or nowhere), and
  the feature coordinate is kept. With the dimension numbers printed for "row idx[r] of a table, for every r",
  entry (r, f) of the gathered array is the table's entry (g, f), g the start word of r read signed and clamped to
  the table's rows. Stated for any sizes.
-/
import proofs.«107133_j48919677501959_1_alg».proof.Proof.LibGraphOps
import Idealize.ShloMosaic.PureOps.Ideal
import Idealize.ShloMosaic.Lib.ValueIdx

namespace Idealize.ShloMosaic.GraphOps

open Idealize.ShloMosaic Idealize.ShloMosaic.ValueIdx

/-- ROWS ADDED INTO ROWS, AT AN ENTRY. -/
theorem rows_scatterAdd_apply {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ w) (upd : (⟨2, ![N, D]⟩ : Shape).Idx → EReal)
    (c : Fin C) (f : Fin D) :
    Ideal.hostScatterAdd d x idx upd (ix2 c f)
      = x (ix2 c f) + ∑ r ∈ Finset.univ.filter (fun r : Fin N => (idx (ix2 r (0 : Fin 1))).toInt = (c.val : ℤ)), upd (ix2 r f) := by
  unfold Ideal.hostScatterAdd
  congr 1
  -- both filtered sums as sums of guarded terms; the update index set splits into rows and feature columns
  rw [Finset.sum_filter, Finset.sum_filter, sum_idx2]
  refine Finset.sum_congr rfl (fun r _ => ?_)
  -- in row r only the column b = f can land on (c, f), and it does exactly when the row's word is c
  rw [Finset.sum_eq_single f]
  · by_cases hS : (idx (ix2 r (0 : Fin 1))).toInt = (c.val : ℤ)
    · rw [if_pos ((rows_hit d huw hiw hsd hivd idx r f f c).mpr ⟨hS, rfl⟩), if_pos hS]
    · rw [if_neg (fun h => hS ((rows_hit d huw hiw hsd hivd idx r f f c).mp h).1), if_neg hS]
  · intro b _ hb
    exact if_neg (fun h => hb ((rows_hit d huw hiw hsd hivd idx r b f c).mp h).2)
  · intro h
    exact absurd (Finset.mem_univ f) h

/-- The table row a start word names: read signed, negative words to row 0, words past the end to the last row. -/
def clampRow {w : Nat} (C : Nat) (hC : 0 < C) (word : BitVec w) : Fin C := ⟨min word.toInt.toNat (C - 1), by omega⟩

section gatherRows
variable {C D N w : Nat} (d : GatherDims ⟨2, ![C, D]⟩ ⟨2, ![N, 1]⟩ ⟨2, ![N, D]⟩)

/-- With axis 1 of the gathered array the one offset axis, every batch axis of the gathered array is axis 0. -/
theorem rows_gather_batchDims (hod : d.offsetDims = [1]) : ∀ a ∈ d.batchDims, a.val = 0 := by
  intro a ha
  have hna : a ∉ d.offsetDims := by
    have := (List.mem_filter.mp ha).2
    simpa using this
  rw [hod] at hna
  have h2 : a.val < 2 := a.isLt
  by_contra hne
  exact hna (List.mem_singleton.mpr (Fin.ext (by show a.val = 1; omega)))

/-- Gathered entry (r, f) reads its one start word at (r, 0) of the start indices. -/
theorem rows_gather_siIdx (hod : d.offsetDims = [1]) (hsim : d.startIndexMap = [0]) (hivd : d.indexVectorDim = 1)
    (r : Fin N) (f : Fin D) (k : Fin d.startIndexMap.length) :
    d.siIdx (ix2 r f) k = ix2 r (0 : Fin 1) := by
  funext a
  apply Fin.ext
  match a with
  | ⟨0, _⟩ =>
    -- axis 0 of the start indices is not the index vector's: it carries the batch coordinate, which is r
    unfold GatherDims.siIdx
    rw [dif_neg (by rw [hivd]; exact Nat.zero_ne_one)]
    unfold GatherDims.siCoord
    simp only [Fin.val_cast]
    exact ix2_val_zero r f _ (rows_gather_batchDims d hod _ (List.getElem_mem _))
  | ⟨1, _⟩ =>
    -- axis 1 is the index vector's, of length one: the only component is component 0
    unfold GatherDims.siIdx
    rw [dif_pos (by rw [hivd])]
    have hl : d.startIndexMap.length = 1 := by rw [hsim]; rfl
    have hk : k.val < d.startIndexMap.length := k.isLt
    show k.val = 0
    omega

end gatherRows

/-- ROWS GATHERED, AT AN ENTRY. -/
theorem rows_gather_apply {α : Type} {C D N w : Nat} (hC : 0 < C) (d : GatherDims ⟨2, ![C, D]⟩ ⟨2, ![N, 1]⟩ ⟨2, ![N, D]⟩)
    (hod : d.offsetDims = [1]) (hcs : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![C, D]⟩ : Shape).Idx → α) (idx : IVec ⟨2, ![N, 1]⟩ w) (r : Fin N) (f : Fin D) :
    Host.gather d x idx (ix2 r f) = x (ix2 (clampRow C hC (idx (ix2 r (0 : Fin 1)))) f) := by
  have _ := hsb
  have hnb : ∀ a : Fin 2, a ∉ d.operandBatchingDims := by intro a; rw [hob]; exact List.not_mem_nil
  unfold Host.gather
  congr 1
  funext a
  refine Fin.ext ?_
  match a with
  | ⟨0, _⟩ =>
    -- table axis 0 is collapsed and start-indexed: no batching or offset coordinate, the start is the clamped word
    show d.start (ix2 r f) idx 0 + d.batchCoord (ix2 r f) 0 + d.offCoord (ix2 r f) 0 = (clampRow C hC (idx (ix2 r (0 : Fin 1)))).val
    rw [GatherDims.batchCoord_eq_zero _ _ _ (hnb 0),
      GatherDims.offCoord_eq_zero _ _ _ (fun h => ((GatherDims.mem_sKept _ _).mp h).1 (by rw [hcs]; exact List.mem_singleton.mpr rfl))]
    simp only [Nat.add_zero]
    unfold GatherDims.start
    rw [dif_pos (show (0 : Fin 2) ∈ d.startIndexMap by rw [hsim]; exact List.mem_singleton.mpr rfl),
      rows_gather_siIdx d hod hsim hivd r f, hss]
    rfl
  | ⟨1, _⟩ =>
    -- table axis 1 is the one kept axis: the slice starts at 0 and the offset coordinate is the feature column
    show d.start (ix2 r f) idx 1 + d.batchCoord (ix2 r f) 1 + d.offCoord (ix2 r f) 1 = f.val
    have hk : (1 : Fin 2) ∈ d.sKept := (GatherDims.mem_sKept _ _).mpr ⟨by rw [hcs]; simp, hnb 1⟩
    have hoff : ∀ a ∈ d.offsetDims, a.val = 1 := by
      intro a ha; rw [hod] at ha; rw [List.mem_singleton.mp ha]; rfl
    rw [GatherDims.batchCoord_eq_zero _ _ _ (hnb 1)]
    unfold GatherDims.start
    rw [dif_neg (show (1 : Fin 2) ∉ d.startIndexMap by rw [hsim]; simp)]
    unfold GatherDims.offCoord
    rw [dif_pos hk]
    simp only [Nat.zero_add]
    exact ix2_val_one r f _ (hoff _ (List.getElem_mem _))

end Idealize.ShloMosaic.GraphOps
-- ==== Proof.Bridge.lean ====
/-
  The kernel's last stretch on 128 columns, cut to 40, is the reference's second layer on 40 columns.

  Gathering rows along the edges, scaling each gathered row by the edge's normalisation, adding the rows into
  the edges' target rows and adding a bias row act on every column by itself: entry (p, f) of the result is
  z (p, f) + ∑ over the edges r whose target row is p of t (source row of r, f) · n (r) + b (f). So the first 40
  columns of the result on 128 columns depend only on the first 40 columns of t and of b. There the padded
  W2 and b2 are W2 and b2, the product with the padded W2 is the product with W2 (the same sum over the 128
  shared coordinates), and the positive part taken inside the kernel is the reference's maximum with zero.
-/
import proofs.«107133_j48919677501959_1_alg».proof.Proof.KernelStages
import proofs.«107133_j48919677501959_1_alg».proof.Proof.LibGraphRows
import Idealize.ShloMosaic.Lib.KernelVsHost
import Idealize.ShloMosaic.Lib.Pipeline.Value

set_option maxRecDepth 16384

noncomputable section

namespace Cert.Bridge

open Idealize.ShloMosaic Idealize.ShloMosaic.ValueIdx Idealize.ShloMosaic.GraphOps
open Cert.KernelIdeal Cert.KernelIdeal.Gen Cert.KernelIdeal.Stages Cert.ReferenceIdeal.ReadP

/-- One graph-convolution aggregation read at entry (p, f), for any number D of columns. -/
theorem conv_at {D : Nat}
    (dS : ScatterDims ⟨2, ![50000, D]⟩ ⟨2, ![850000, 1]⟩ ⟨2, ![850000, D]⟩)
    (huw : dS.updateWindowDims = [1]) (hiw : dS.insertedWindowDims = [0]) (hsd : dS.scatterDimsToOperandDims = [0])
    (hivd : dS.indexVectorDim = 1)
    (dG : GatherDims ⟨2, ![50000, D]⟩ ⟨2, ![850000, 1]⟩ ⟨2, ![850000, D]⟩)
    (hod : dG.offsetDims = [1]) (hcs : dG.collapsedSliceDims = [0]) (hob : dG.operandBatchingDims = [])
    (hsb : dG.startIndicesBatchingDims = []) (hsim : dG.startIndexMap = [0]) (hgiv : dG.indexVectorDim = 1)
    (hss : dG.sliceSizes = ![1, D])
    (z : FVec Ideal ⟨2, ![50000, D]⟩ .f32) (cb rb : IVec ⟨2, ![850000, 1]⟩ 32) (t : FVec Ideal ⟨2, ![50000, D]⟩ .f32)
    (n : FVec Ideal ⟨2, ![850000, D]⟩ .f32) (b : FVec Ideal ⟨2, ![50000, D]⟩ .f32) (p : Fin 50000) (f : Fin D) :
    addf (Host.scatterAdd dS z cb (mulf (Host.gather dG t rb) n)) b (ix2 p f)
      = (z (ix2 p f) + ∑ r ∈ Finset.univ.filter (fun r : Fin 850000 => (cb (ix2 r (0 : Fin 1))).toInt = (p.val : ℤ)),
            t (ix2 (clampRow 50000 (by decide) (rb (ix2 r (0 : Fin 1)))) f) * n (ix2 r f))
        + b (ix2 p f) := by
  show (Ideal.hostScatterAdd dS z cb (mulf (Host.gather dG t rb) n) (ix2 p f) : EReal) + b (ix2 p f) = _
  rw [rows_scatterAdd_apply dS huw hiw hsd hivd]
  refine congrArg (fun s : EReal => (z (ix2 p f) + s) + b (ix2 p f)) ?_
  refine Finset.sum_congr rfl fun r _ => ?_
  show (Host.gather dG t rb (ix2 r f) : EReal) * n (ix2 r f) = _
  rw [rows_gather_apply (by decide) dG hod hcs hob hsb hsim hgiv hss]

/-- The padded W2 on one of its first 40 columns is W2. -/
theorem padW2_apply (w2 : (⟨S128x40, .f32⟩ : BufTy).Contents (Elt Ideal)) (k : Fin 128) (f : Fin 40) (hf : f.val < 128) :
    padW2 w2 (ix2 k (⟨f.val, hf⟩ : Fin 128)) = w2 (ix2 k f) := by
  unfold padW2
  exact pad_apply_of_inside ![0, 0] ![0, 88] ![0, 0] w2 _ pads_S128x40_S128x128_000_0880 h_S_ (ix2 k (⟨f.val, hf⟩ : Fin 128)) (ix2 k f) (fun a => by
    match a with
    | ⟨0, _⟩ => show k.val = 0 + k.val * (0 + 1); omega
    | ⟨1, _⟩ => show f.val = 0 + f.val * (0 + 1); omega)

/-- The padded b2 on one of its first 40 entries is b2. -/
theorem padB2_apply (b2 : (⟨S40, .f32⟩ : BufTy).Contents (Elt Ideal)) (f : Fin 40) (hf : f.val < 128) :
    padB2 b2 (ix1 (⟨f.val, hf⟩ : Fin 128)) = b2 (ix1 f) := by
  unfold padB2
  exact pad_apply_of_inside ![0] ![88] ![0] b2 _ pads_S40_S128_0880 h_S_ (ix1 (⟨f.val, hf⟩ : Fin 128)) (ix1 f) (fun a => by
    match a with
    | ⟨0, _⟩ => show f.val = 0 + f.val * (0 + 1); omega)

variable (x : (⟨S50000x128, .f32⟩ : BufTy).Contents (Elt Ideal)) (e : (⟨S2x800000, .i32⟩ : BufTy).Contents (Elt Ideal))
  (w1 : (⟨S128x128, .f32⟩ : BufTy).Contents (Elt Ideal)) (b1 : (⟨S128, .f32⟩ : BufTy).Contents (Elt Ideal))
  (w2 : (⟨S128x40, .f32⟩ : BufTy).Contents (Elt Ideal)) (b2 : (⟨S40, .f32⟩ : BufTy).Contents (Elt Ideal))

/-- The product with the padded W2, on one of the first 40 columns, is the reference's product with W2 of the
    positive part. -/
theorem prod_apply (g : Fin 50000) (f : Fin 40) (hf : f.val < 128) :
    Cert.Spec.mm (Cert.Spec.relu (val_main_v46 (F := Ideal) x e w1 b1)) (padW2 w2) (ix2 g (⟨f.val, hf⟩ : Fin 128))
      = val_main_v48 (F := Ideal) x e w1 b1 w2 (ix2 g f) := by
  rw [Cert.Spec.mm_apply, val_main_v48_apply]
  refine Finset.sum_congr rfl fun k _ => ?_
  rw [padW2_apply w2 k f hf]
  have el : lidx_main_v48 (ix2 g f) k = ix2 g k := funext fun a => Fin.ext (by match a with | ⟨0, _⟩ => rfl | ⟨1, _⟩ => rfl)
  have er : ridx_main_v48 (ix2 g f) k = ix2 k f := funext fun a => Fin.ext (by match a with | ⟨0, _⟩ => rfl | ⟨1, _⟩ => rfl)
  rw [el, er, val_main_v47_apply, val_main_call1_v0_apply, val_main_call1_cst_apply]
  unfold Cert.Spec.relu
  rfl

/-- THE BRIDGE: the kernel's last stretch is the reference's result. -/
theorem tail_eq_ref :
    tail (Cert.Spec.mm (Cert.Spec.relu (val_main_v46 (F := Ideal) x e w1 b1)) (padW2 w2))
        (val_main_v3 (F := Ideal) e) (val_main_v6 (F := Ideal) e) (val_main_v29 (F := Ideal) e) (padB2 b2)
      = val_main_v64 (F := Ideal) x e w1 b1 w2 b2 := by
  funext i
  obtain ⟨p, f, rfl⟩ : ∃ (p : Fin 50000) (f : Fin 40), i = ix2 p f := ⟨i 0, i 1, eq_ix2 i⟩
  have hf : f.val < 128 := by have := f.isLt; omega
  unfold tail
  rw [extractStridedSlice_apply ![0, 0] _ slices_S50000x128_S50000x40_0_0 (ix2 p f) (ix2 p (⟨f.val, hf⟩ : Fin 128)) (fun a => by
    match a with
    | ⟨0, _⟩ => show p.val = 0 + p.val; omega
    | ⟨1, _⟩ => show f.val = 0 + f.val; omega)]
  rw [conv_at scatter_S50000x128_S850000x1_S850000x128_1_0_0_1 rfl rfl rfl rfl
    gather_S50000x128_S850000x1_S850000x128_1_0_n_n_0_1_1128 rfl rfl rfl rfl rfl rfl rfl]
  unfold val_main_v64 val_main_v61 val_main_v58 val_main_v55
  rw [conv_at Cert.ReferenceIdeal.scatter_S50000x40_S850000x1_S850000x40_1_0_0_1 rfl rfl rfl rfl
    Cert.ReferenceIdeal.gather_S50000x40_S850000x1_S850000x40_1_0_n_n_0_1_140 rfl rfl rfl rfl rfl rfl rfl]
  -- the two index vectors are the reference's own stages, word for word
  have hcb : broadcastInDim S850000x1 ![0] bcast_S850000_S850000x1_0 (val_main_v6 (F := Ideal) e) = val_main_v60 (F := Ideal) e := rfl
  have hrb : broadcastInDim S850000x1 ![0] bcast_S850000_S850000x1_0
      (select (cmpi .slt (val_main_v3 (F := Ideal) e) (broadcastInDim S850000 ![] bcast_S_S850000 (constantI S_ 32 0#32)))
        (addi (val_main_v3 (F := Ideal) e) (broadcastInDim S850000 ![] bcast_S_S850000 (constantI S_ 32 50000#32)))
        (val_main_v3 (F := Ideal) e)) = val_main_v54 (F := Ideal) e := rfl
  rw [hcb, hrb]
  -- the array the rows are added into is zero on both sides
  have hz : broadcastInDim S50000x128 ![] bcast_S_S50000x128 (constant (F := Ideal) S_ .f32 0x00000000#32) (ix2 p (⟨f.val, hf⟩ : Fin 128))
      = val_main_v59 (F := Ideal) (ix2 p f) := by
    rw [val_main_v59_apply, val_main_cst_11_apply]
    exact broadcastInDim_apply _ bcast_S_S50000x128 _ _ (fun a => a.elim0) (fun a => a.elim0)
  -- the bias row at column f is b2 f on both sides
  have hb : broadcastInDim S50000x128 ![0, 1] bcast_S1x128_S50000x128_0_1 (broadcastInDim S1x128 ![1] bcast_S128_S1x128_1 (padB2 b2))
      (ix2 p (⟨f.val, hf⟩ : Fin 128)) = val_main_v63 (F := Ideal) b2 (ix2 p f) := by
    rw [val_main_v63_apply, val_main_v62_apply]
    rw [broadcastInDim_apply _ bcast_S1x128_S50000x128_0_1 _ (ix2 p (⟨f.val, hf⟩ : Fin 128)) (ix2 (0 : Fin 1) (⟨f.val, hf⟩ : Fin 128)) (fun a => by
      match a with
      | ⟨0, _⟩ => show 0 = if (1 : Nat) = 1 then 0 else p.val; rw [if_pos rfl]
      | ⟨1, _⟩ => show f.val = if (128 : Nat) = 1 then 0 else f.val; rw [if_neg (by decide)])]
    rw [broadcastInDim_apply _ bcast_S128_S1x128_1 _ (ix2 (0 : Fin 1) (⟨f.val, hf⟩ : Fin 128)) (ix1 (⟨f.val, hf⟩ : Fin 128)) (fun a => by
      match a with
      | ⟨0, _⟩ => show f.val = if (128 : Nat) = 1 then 0 else f.val; rw [if_neg (by decide)])]
    rw [padB2_apply b2 f hf]
    exact congrArg b2 (funext fun a => Fin.ext (by match a with | ⟨0, _⟩ => rfl))
  -- the normalisation of edge r, the same in every column
  have hn : ∀ r : Fin 850000, broadcastInDim S850000x128 ![0, 1] bcast_S850000x1_S850000x128_0_1
      (broadcastInDim S850000x1 ![0] bcast_S850000_S850000x1_0 (val_main_v29 (F := Ideal) e)) (ix2 r (⟨f.val, hf⟩ : Fin 128))
      = val_main_v57 (F := Ideal) e (ix2 r f) := by
    intro r
    rw [val_main_v57_apply, val_main_v56_apply]
    rw [broadcastInDim_apply _ bcast_S850000x1_S850000x128_0_1 _ (ix2 r (⟨f.val, hf⟩ : Fin 128)) (ix2 r (0 : Fin 1)) (fun a => by
      match a with
      | ⟨0, _⟩ => show r.val = if (850000 : Nat) = 1 then 0 else r.val; rw [if_neg (by decide)]
      | ⟨1, _⟩ => show 0 = if (1 : Nat) = 1 then 0 else f.val; rw [if_pos rfl])]
    rw [broadcastInDim_apply _ bcast_S850000_S850000x1_0 _ (ix2 r (0 : Fin 1)) (ix1 r) (fun a => by
      match a with
      | ⟨0, _⟩ => show r.val = if (850000 : Nat) = 1 then 0 else r.val; rw [if_neg (by decide)])]
    exact congrArg (val_main_v29 (F := Ideal) e) (funext fun a => Fin.ext (by match a with | ⟨0, _⟩ => rfl))
  rw [hz, hb]
  refine congrArg (fun s : EReal => (val_main_v59 (F := Ideal) (ix2 p f) + s) + val_main_v63 (F := Ideal) b2 (ix2 p f)) ?_
  refine Finset.sum_congr rfl fun r _ => ?_
  rw [hn r, prod_apply x e w1 b1 w2 _ f hf]

end Cert.Bridge

end
-- ==== Proof.lean ====
/- The proof of `Cert.Claim`: a two-layer graph convolution whose two dense products run as row-tiled kernels,
   against the plain reference.

   Both programs build the same edge rows and normalisation from the edge list, and both aggregate a layer by gathering
   rows along the edges, scaling, adding into the target rows and adding a bias. They differ in three places, none of
   which changes a value over the extended reals: each dense product is computed block by block of 5000 rows (a sum over
   the 128 shared coordinates either way); the positive part between the layers is taken inside the second kernel; and
   the second layer is computed on 128 columns — W2 and b2 padded with zeros — and cut back to 40 at the end, which
   changes nothing on the first 40 columns because the aggregation acts on each column by itself.
   The three frames are the generated ones (the reference's: its run with the result dropped); the idealization rewrote
   nothing, so `preserves` is trivial; `algebraic` joins the kernel's run, with its result array named, to the reference's
   run through `Stages.kernel_value` and `Bridge.tail_eq_ref`. -/
import proofs.«107133_j48919677501959_1_alg».proof.Defs
import proofs.«107133_j48919677501959_1_alg».proof.Proof.Gen.Kernel
import proofs.«107133_j48919677501959_1_alg».proof.Proof.Gen.Kernel.Skeleton
import proofs.«107133_j48919677501959_1_alg».proof.Proof.Gen.Kernel.Launch
import proofs.«107133_j48919677501959_1_alg».proof.Proof.Gen.Kernel.Points
import proofs.«107133_j48919677501959_1_alg».proof.Proof.Gen.Kernel.Frame
import proofs.«107133_j48919677501959_1_alg».proof.Proof.Gen.KernelIdeal
import proofs.«107133_j48919677501959_1_alg».proof.Proof.Gen.KernelIdeal.Skeleton
import proofs.«107133_j48919677501959_1_alg».proof.Proof.Gen.KernelIdeal.Launch
import proofs.«107133_j48919677501959_1_alg».proof.Proof.Gen.KernelIdeal.Points
import proofs.«107133_j48919677501959_1_alg».proof.Proof.Gen.KernelIdeal.Frame
import proofs.«107133_j48919677501959_1_alg».proof.Proof.Gen.ReferenceIdeal
import proofs.«107133_j48919677501959_1_alg».proof.Proof.Gen.Pre_finite_inputs
import proofs.«107133_j48919677501959_1_alg».proof.Proof.RefRun
import proofs.«107133_j48919677501959_1_alg».proof.Proof.RefRead
import proofs.«107133_j48919677501959_1_alg».proof.Proof.KernelRun
import proofs.«107133_j48919677501959_1_alg».proof.Proof.KernelStages
import proofs.«107133_j48919677501959_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Run from memories that agree on the arguments, the two idealized programs end with the same result array:
    the kernel's is the last stretch applied to its second product, which is the reference's second layer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W10 m ρ c (Proc.devRef .tc Cert.KernelIdeal.main_v66), Cert.KernelIdeal.GenP.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact ((Cert.KernelIdeal.Stages.kernel_value m ρ c).trans (Cert.Bridge.tail_eq_ref _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
